-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x256 : Shape := ⟨3, ![4, 1024, 256]⟩
abbrev S524500 : Shape := ⟨1, ![524500]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel

variable [Facts]

def fn {F : FTy → Type} [FloatOps F] (main_arg0 : FVec F S4x1024x256 .f32) (main_arg1 : IVec S524500 32) (main_arg2 : IVec S524500 32) (main_arg3 : IVec S524500 32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  main_v3
-- ==== Kernel.lean ====
abbrev S4x1024x256 : Shape := ⟨3, ![4, 1024, 256]⟩
abbrev S524500 : Shape := ⟨1, ![524500]⟩
abbrev S_ : Shape := ⟨0, ![]⟩
abbrev S524500x1 : Shape := ⟨2, ![524500, 1]⟩
abbrev S524500x2 : Shape := ⟨2, ![524500, 2]⟩
abbrev S524500x256 : Shape := ⟨2, ![524500, 256]⟩
abbrev S526336x256 : Shape := ⟨2, ![526336, 256]⟩
abbrev S526336 : Shape := ⟨1, ![526336]⟩
abbrev S2048x256 : Shape := ⟨2, ![2048, 256]⟩
abbrev S2048 : Shape := ⟨1, ![2048]⟩
abbrev S524500x1x1x1 : Shape := ⟨4, ![524500, 1, 1, 1]⟩
abbrev S524500x8x1x1 : Shape := ⟨4, ![524500, 8, 1, 1]⟩

abbrev nBuf : Space → Nat
  | .hbm => 50
  | .vmem => 6
  | .smem => 0
  | _ => 0

abbrev bufTy : (tb : Table) → Fin (tcTables nBuf tb) → BufTy
  | .hbm, ⟨0, _⟩ => ⟨S4x1024x256, .f32⟩
  | .hbm, ⟨1, _⟩ => ⟨S524500, .i32⟩
  | .hbm, ⟨2, _⟩ => ⟨S524500, .i32⟩
  | .hbm, ⟨3, _⟩ => ⟨S524500, .i32⟩
  | .hbm, ⟨4, _⟩ => ⟨S_, .i32⟩
  | .hbm, ⟨5, _⟩ => ⟨S524500, .i32⟩
  | .hbm, ⟨6, _⟩ => ⟨S524500, .i1⟩
  | .hbm, ⟨7, _⟩ => ⟨S_, .i32⟩
  | .hbm, ⟨8, _⟩ => ⟨S524500, .i32⟩
  | .hbm, ⟨9, _⟩ => ⟨S524500, .i32⟩
  | .hbm, ⟨10, _⟩ => ⟨S524500, .i32⟩
  | .hbm, ⟨11, _⟩ => ⟨S_, .i32⟩
  | .hbm, ⟨12, _⟩ => ⟨S524500, .i32⟩
  | .hbm, ⟨13, _⟩ => ⟨S524500, .i1⟩
  | .hbm, ⟨14, _⟩ => ⟨S_, .i32⟩
  | .hbm, ⟨15, _⟩ => ⟨S524500, .i32⟩
  | .hbm, ⟨16, _⟩ => ⟨S524500, .i32⟩
  | .hbm, ⟨17, _⟩ => ⟨S524500, .i32⟩
  | .hbm, ⟨18, _⟩ => ⟨S524500x1, .i32⟩
  | .hbm, ⟨19, _⟩ => ⟨S524500x1, .i32⟩
  | .hbm, ⟨20, _⟩ => ⟨S524500x2, .i32⟩
  | .hbm, ⟨21, _⟩ => ⟨S524500x256, .f32⟩
  | .hbm, ⟨22, _⟩ => ⟨S_, .i32⟩
  | .hbm, ⟨23, _⟩ => ⟨S524500, .i32⟩
  | .hbm, ⟨24, _⟩ => ⟨S524500, .i1⟩
  | .hbm, ⟨25, _⟩ => ⟨S_, .i32⟩
  | .hbm, ⟨26, _⟩ => ⟨S524500, .i32⟩
  | .hbm, ⟨27, _⟩ => ⟨S524500, .i32⟩
  | .hbm, ⟨28, _⟩ => ⟨S524500, .i32⟩
  | .hbm, ⟨29, _⟩ => ⟨S_, .i32⟩
  | .hbm, ⟨30, _⟩ => ⟨S524500, .i32⟩
  | .hbm, ⟨31, _⟩ => ⟨S524500, .i1⟩
  | .hbm, ⟨32, _⟩ => ⟨S_, .i32⟩
  | .hbm, ⟨33, _⟩ => ⟨S524500, .i32⟩
  | .hbm, ⟨34, _⟩ => ⟨S524500, .i32⟩
  | .hbm, ⟨35, _⟩ => ⟨S524500, .i32⟩
  | .hbm, ⟨36, _⟩ => ⟨S524500x1, .i32⟩
  | .hbm, ⟨37, _⟩ => ⟨S524500x1, .i32⟩
  | .hbm, ⟨38, _⟩ => ⟨S524500x2, .i32⟩
  | .hbm, ⟨39, _⟩ => ⟨S524500x256, .f32⟩
  | .hbm, ⟨40, _⟩ => ⟨S_, .i32⟩
  | .hbm, ⟨41, _⟩ => ⟨S_, .f32⟩
  | .hbm, ⟨42, _⟩ => ⟨S526336x256, .f32⟩
  | .hbm, ⟨43, _⟩ => ⟨S_, .i32⟩
  | .hbm, ⟨44, _⟩ => ⟨S_, .f32⟩
  | .hbm, ⟨45, _⟩ => ⟨S526336x256, .f32⟩
  | .hbm, ⟨46, _⟩ => ⟨S526336, .f32⟩
  | .hbm, ⟨47, _⟩ => ⟨S524500, .f32⟩
  | .hbm, ⟨48, _⟩ => ⟨S524500x1x1x1, .f32⟩
  | .hbm, ⟨49, _⟩ => ⟨S524500x8x1x1, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048, .f32⟩
  | .local _ .vmem, ⟨5, _⟩ => ⟨S2048, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_call0_v0 : Ref sig .tc := ⟨.hbm, 41, rfl⟩
abbrev main_v28 : Ref sig .tc := ⟨.hbm, 42, rfl⟩
abbrev main_c_8 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![257], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S524500 : S_.BroadcastsInDim S524500 (![] : Fin 0 → Fin S524500.rank)
  bcast_S524500_S524500x1_0 : S524500.BroadcastsInDim S524500x1 (![0] : Fin 1 → Fin S524500x1.rank)
  concatenates_S524500x1_S524500x1_S524500x2_d1 : Shape.Concatenates [S524500x1, S524500x1] S524500x2 1
  pads_S524500x256_S526336x256_018360_000 : S524500x256.Pads (![0, 0] : Fin 2 → Nat) ![1836, 0] ![0, 0] S526336x256
  h_S_ : 0 < S_.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  inb_S2048_S2048_0 : ∀ a, (![0] : Fin 1 → Nat) a + S2048.size a ≤ S2048.size a
  h_S2048 : 0 < S2048.numel
  slices_S526336_S524500_0 : S526336.Slices ![0] S524500
  bcast_S524500_S524500x1x1x1_0 : S524500.BroadcastsInDim S524500x1x1x1 (![0] : Fin 1 → Fin S524500x1x1x1.rank)
  bcast_S524500x1x1x1_S524500x8x1x1_0_1_2_3 : S524500x1x1x1.BroadcastsInDim S524500x8x1x1 (![0, 1, 2, 3] : Fin 4 → Fin S524500x8x1x1.rank)
  gather_S4x1024x256_S524500x2_S524500x256_1_01_n_n_01_1_11256_wf : GatherDims.WF S4x1024x256 S524500x2 S524500x256 [1] [0, 1] [] [0, 1] [] 1 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S526336x256.size a
  hwx0_0 : ∀ i : grid0.Coords, EltTy.bits .f32 = 32 ∨ (Rect.block (s := S526336x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S526336x256.size a
  hwx0_1 : ∀ i : grid0.Coords, EltTy.bits .f32 = 32 ∨ (Rect.block (s := S526336x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S526336.size a
  hwx0_2 : ∀ i : grid0.Coords, EltTy.bits .f32 = 32 ∨ (Rect.block (s := S526336) S2048.size (cc0_transform_2 i) (hinb0_2 i)).WholeWords (EltTy.packing .f32)

variable [Facts₀]

def gather_S4x1024x256_S524500x2_S524500x256_1_01_n_n_01_1_11256 : GatherDims S4x1024x256 S524500x2 S524500x256 where
  offsetDims := [1]
  collapsedSliceDims := [0, 1]
  operandBatchingDims := []
  startIndicesBatchingDims := []
  startIndexMap := [0, 1]
  indexVectorDim := 1
  sliceSizes := ![1, 1, 256]
  wf := gather_S4x1024x256_S524500x2_S524500x256_1_01_n_n_01_1_11256_wf

abbrev win0_0 : Pipeline.Window sig grid0 :=
  Pipeline.Window.ofSpec (Memref.whole main_v28) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x256 : Shape := ⟨3, ![4, 1024, 256]⟩
abbrev S524500 : Shape := ⟨1, ![524500]⟩
abbrev S_ : Shape := ⟨0, ![]⟩
abbrev S524500x1 : Shape := ⟨2, ![524500, 1]⟩
abbrev S524500x2 : Shape := ⟨2, ![524500, 2]⟩
abbrev S524500x256 : Shape := ⟨2, ![524500, 256]⟩
abbrev S524500x1x1x1 : Shape := ⟨4, ![524500, 1, 1, 1]⟩
abbrev S524500x8x1x1 : Shape := ⟨4, ![524500, 8, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S524500, .i32⟩
  | .hbm, ⟨2, _⟩ => ⟨S524500, .i32⟩
  | .hbm, ⟨3, _⟩ => ⟨S524500, .i32⟩
  | .hbm, ⟨4, _⟩ => ⟨S_, .i32⟩
  | .hbm, ⟨5, _⟩ => ⟨S524500, .i32⟩
  | .hbm, ⟨6, _⟩ => ⟨S524500, .i1⟩
  | .hbm, ⟨7, _⟩ => ⟨S_, .i32⟩
  | .hbm, ⟨8, _⟩ => ⟨S524500, .i32⟩
  | .hbm, ⟨9, _⟩ => ⟨S524500, .i32⟩
  | .hbm, ⟨10, _⟩ => ⟨S524500, .i32⟩
  | .hbm, ⟨11, _⟩ => ⟨S_, .i32⟩
  | .hbm, ⟨12, _⟩ => ⟨S524500, .i32⟩
  | .hbm, ⟨13, _⟩ => ⟨S524500, .i1⟩
  | .hbm, ⟨14, _⟩ => ⟨S_, .i32⟩
  | .hbm, ⟨15, _⟩ => ⟨S524500, .i32⟩
  | .hbm, ⟨16, _⟩ => ⟨S524500, .i32⟩
  | .hbm, ⟨17, _⟩ => ⟨S524500, .i32⟩
  | .hbm, ⟨18, _⟩ => ⟨S524500x1, .i32⟩
  | .hbm, ⟨19, _⟩ => ⟨S524500x1, .i32⟩
  | .hbm, ⟨20, _⟩ => ⟨S524500x2, .i32⟩
  | .hbm, ⟨21, _⟩ => ⟨S524500x256, .f32⟩
  | .hbm, ⟨22, _⟩ => ⟨S_, .i32⟩
  | .hbm, ⟨23, _⟩ => ⟨S524500, .i32⟩
  | .hbm, ⟨24, _⟩ => ⟨S524500, .i1⟩
  | .hbm, ⟨25, _⟩ => ⟨S_, .i32⟩
  | .hbm, ⟨26, _⟩ => ⟨S524500, .i32⟩
  | .hbm, ⟨27, _⟩ => ⟨S524500, .i32⟩
  | .hbm, ⟨28, _⟩ => ⟨S524500, .i32⟩
  | .hbm, ⟨29, _⟩ => ⟨S_, .i32⟩
  | .hbm, ⟨30, _⟩ => ⟨S524500, .i32⟩
  | .hbm, ⟨31, _⟩ => ⟨S524500, .i1⟩
  | .hbm, ⟨32, _⟩ => ⟨S_, .i32⟩
  | .hbm, ⟨33, _⟩ => ⟨S524500, .i32⟩
  | .hbm, ⟨34, _⟩ => ⟨S524500, .i32⟩
  | .hbm, ⟨35, _⟩ => ⟨S524500, .i32⟩
  | .hbm, ⟨36, _⟩ => ⟨S524500x1, .i32⟩
  | .hbm, ⟨37, _⟩ => ⟨S524500x1, .i32⟩
  | .hbm, ⟨38, _⟩ => ⟨S524500x2, .i32⟩
  | .hbm, ⟨39, _⟩ => ⟨S524500x256, .f32⟩
  | .hbm, ⟨40, _⟩ => ⟨S524500x256, .f32⟩
  | .hbm, ⟨41, _⟩ => ⟨S524500x256, .f32⟩
  | .hbm, ⟨42, _⟩ => ⟨S_, .f32⟩
  | .hbm, ⟨43, _⟩ => ⟨S524500, .f32⟩
  | .hbm, ⟨44, _⟩ => ⟨S524500, .f32⟩
  | .hbm, ⟨45, _⟩ => ⟨S524500, .f32⟩
  | .hbm, ⟨46, _⟩ => ⟨S524500x1x1x1, .f32⟩
  | .hbm, ⟨47, _⟩ => ⟨S524500x8x1x1, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S524500 : S_.BroadcastsInDim S524500 (![] : Fin 0 → Fin S524500.rank)
  bcast_S524500_S524500x1_0 : S524500.BroadcastsInDim S524500x1 (![0] : Fin 1 → Fin S524500x1.rank)
  concatenates_S524500x1_S524500x1_S524500x2_d1 : Shape.Concatenates [S524500x1, S524500x1] S524500x2 1
  reducesTo_S524500x256_S524500_d1 : S524500x256.ReducesTo [1] S524500
  h_S_ : 0 < S_.numel
  bcast_S524500_S524500x1x1x1_0 : S524500.BroadcastsInDim S524500x1x1x1 (![0] : Fin 1 → Fin S524500x1x1x1.rank)
  bcast_S524500x1x1x1_S524500x8x1x1_0_1_2_3 : S524500x1x1x1.BroadcastsInDim S524500x8x1x1 (![0, 1, 2, 3] : Fin 4 → Fin S524500x8x1x1.rank)
  gather_S4x1024x256_S524500x2_S524500x256_1_01_n_n_01_1_11256_wf : GatherDims.WF S4x1024x256 S524500x2 S524500x256 [1] [0, 1] [] [0, 1] [] 1 ![1, 1, 256]

variable [Facts₀]

def gather_S4x1024x256_S524500x2_S524500x256_1_01_n_n_01_1_11256 : GatherDims S4x1024x256 S524500x2 S524500x256 where
  offsetDims := [1]
  collapsedSliceDims := [0, 1]
  operandBatchingDims := []
  startIndicesBatchingDims := []
  startIndexMap := [0, 1]
  indexVectorDim := 1
  sliceSizes := ![1, 1, 256]
  wf := gather_S4x1024x256_S524500x2_S524500x256_1_01_n_n_01_1_11256_wf

class Facts : Prop extends Facts₀ where

variable [Facts]
-- ==== Proof.RowDistance.lean ====
/-
  The Euclidean distance between two rows of 256 extended reals, and the tensor of such distances over
  524500 row pairs, repeated 8 times along a second axis.

  On the extended reals the square root is the real one on [0, ∞), sends +∞ to +∞ and every negative
  value (and −∞) to −∞, and the absolute value of y is max y (−y).  No law of arithmetic is used below:
  the distance is one fixed expression, and the two programs are each shown to compute it.
-/
import Idealize.ShloMosaic.PureOps.Ideal
import Idealize.ShloMosaic.PureOps.Ideal.Laws
import Idealize.ShloMosaic.Lib.ValueIdx

noncomputable section

namespace Cert.RowDistance

open Idealize.ShloMosaic Idealize.ShloMosaic.ValueIdx

/-- The sum of the squared coordinate differences of two rows. -/
def sqDiff (p q : Fin 256 → EReal) : EReal :=
  ∑ k : Fin 256, (p k - q k) * (p k - q k)

/-- |√(∑ₖ (pₖ − qₖ)²)|: the distance between the rows `p` and `q`. -/
def rowDist (p q : Fin 256 → EReal) : EReal :=
  max (Ideal.sqrt (sqDiff p q)) (-(Ideal.sqrt (sqDiff p q)))

/-- Row `e` of a matrix with 256 columns. -/
abbrev row {R : Nat} (a : (⟨2, ![R, 256]⟩ : Shape).Idx → EReal) (e : Fin R) : Fin 256 → EReal :=
  fun k => a (ix2 e k)

/-- The distances of the 524500 row pairs of `a` and `b`. -/
def dists (a b : (⟨2, ![524500, 256]⟩ : Shape).Idx → EReal) : Fin 524500 → EReal :=
  fun e => rowDist (row a e) (row b e)

/-- The result tensor: entry (e, j, 0, 0) is the distance of row pair `e`, for each of the 8 values of `j`. -/
def edgeDist (a b : (⟨2, ![524500, 256]⟩ : Shape).Idx → EReal) : (⟨4, ![524500, 8, 1, 1]⟩ : Shape).Idx → EReal :=
  fun i => dists a b ⟨(i 0).val, (i 0).isLt⟩

/-- The kernel-side reading of the distance: absolute value of the square root of a sum with no initial term. -/
theorem rowDist_eq_absf_sqrt (p q : Fin 256 → EReal) :
    rowDist p q = FloatOps.absf (F := Ideal) (φ := .f32) (FloatOps.sqrt (F := Ideal) (φ := .f32) (sqDiff p q)) := rfl

/-- The host-side reading: the host's absolute value and square root are the same functions, and its sum starts
    from the zero word, which denotes 0. -/
theorem rowDist_eq_host (p q : Fin 256 → EReal) :
    rowDist p q = FloatOps.hostAbsf (F := Ideal) (φ := .f32) (FloatOps.hostUnary (F := Ideal) (φ := .f32) .sqrt
      (Ideal.ofBits .f32 0x00000000#32 + sqDiff p q)) := by
  rw [Ideal.ofBits_zero_f32, zero_add]
  rfl

end Cert.RowDistance

end
-- ==== Proof.ReferenceRows.lean ====
/-
  The reference program's result is the tensor of row-pair distances of its two gathered row sets.

  Read from the result inwards: two broadcasts read entry (e, j, 0, 0) at entry e of the distance vector; the
  absolute value and the square root are applied entry by entry; the row sum starts from the zero word and adds
  the 256 squared differences of row e of the two gathered row sets.  The gathers themselves are not opened.
-/
import proofs.«142380_j61933428411925_1_alg».proof.Proof.Gen.ReferenceIdeal.Read
import proofs.«142380_j61933428411925_1_alg».proof.Proof.RowDistance
import Idealize.ShloMosaic.Lib.ValueIdx

noncomputable section

namespace Cert.ReferenceIdeal.Rows

open Idealize.ShloMosaic Idealize.ShloMosaic.ValueIdx
open Cert.ReferenceIdeal Cert.ReferenceIdeal.Gen Cert.ReferenceIdeal.Read Cert.RowDistance

/-- The last stage of the reference is the distance tensor of the two gathered row sets. -/
theorem result_eq (x0 : (⟨S4x1024x256, .f32⟩ : BufTy).Contents (Elt Ideal))
    (x1 x2 x3 : (⟨S524500, .i32⟩ : BufTy).Contents (Elt Ideal)) :
    val_main_v34 (F := Ideal) x0 x1 x2 x3
      = edgeDist (val_main_v13 (F := Ideal) x0 x1 x2) (val_main_v27 (F := Ideal) x0 x1 x3) := by
  funext i
  rw [val_main_v34_apply, val_main_v33_apply, val_main_v32_apply, val_main_v31_apply, val_main_v30_apply]
  unfold edgeDist dists
  rw [rowDist_eq_host]
  refine congrArg (fun s => FloatOps.hostAbsf (F := Ideal) (φ := .f32) (FloatOps.hostUnary (F := Ideal) (φ := .f32) .sqrt s)) ?_
  refine congrArg₂ (· + ·) rfl (Finset.sum_congr rfl fun k _ => ?_)
  have hidx : idx_main_v30 (idx_main_v33 (idx_main_v34 i)) k
      = ix2 (⟨(i 0).val, (i 0).isLt⟩ : Fin 524500) k :=
    funext fun a => Fin.ext (by match a with | ⟨0, _⟩ => rfl | ⟨1, _⟩ => rfl)
  rw [val_main_v29_apply, val_main_v28_apply, hidx]
  rfl

end Cert.ReferenceIdeal.Rows

end
-- ==== Proof.BodyRow.lean ====
/-
  What the kernel body stores, read at one row: from two loaded blocks of 2048 rows by 256 columns it stores,
  at row r, the distance between row r of the first block and row r of the second.

  The body subtracts the blocks, squares the difference, sums each row over its 256 columns, and takes the square
  root and then the absolute value; the two shape casts in front are between equal shapes and change nothing.
-/
import proofs.«142380_j61933428411925_1_alg».proof.Proof.Gen.KernelIdeal.Skeleton
import proofs.«142380_j61933428411925_1_alg».proof.Proof.RowDistance
import Idealize.ShloMosaic.Lib.Pipeline.Value
import Idealize.ShloMosaic.Lib.ValueIdx
import Idealize.ShloMosaic.PureOps.Ideal.Laws

noncomputable section

namespace Cert.KernelIdeal.BodyRow

open Idealize.ShloMosaic Idealize.ShloMosaic.ValueIdx
open Cert.KernelIdeal Cert.KernelIdeal.Gen Cert.RowDistance

/-- The row sum over the 256 columns: at row r, the sum over k of the entries (r, k). -/
theorem rowSum_apply (src : FVec Ideal S2048x256 .f32) (hφ : FKind.Formats .f32)
    (hacc : (0x00000000#32 : BitVec 32) = FKind.add.neutral .f32 hφ) (r : Fin 2048) :
    multiReduction .add [1] S2048 src 0x00000000#32 reduces_S2048x256_S2048 hφ hacc (ix1 r)
      = ∑ k : Fin 256, src (ix2 r k) := by
  refine (Ideal.multiReduction_add_single src 0x00000000#32 reduces_S2048x256_S2048 hφ hacc (ix1 r)).trans ?_
  refine Finset.sum_congr rfl fun k _ => ?_
  exact congrArg src (funext fun a => Fin.ext (by match a with | ⟨0, _⟩ => rfl | ⟨1, _⟩ => rfl))

/-- The stored vector at row r is the distance between the two blocks' rows r. -/
theorem pay_row (x0 x1 : Vec Ideal S2048x256 .f32) (r : Fin 2048) :
    (k0_pay1 (F := Ideal) x0 x1) (ix1 r) = rowDist (row x0 r) (row x1 r) := by
  unfold k0_pay1
  dsimp only
  rw [shapeCast_self, shapeCast_self, rowDist_eq_absf_sqrt]
  refine congrArg (fun s => FloatOps.absf (F := Ideal) (φ := .f32) (FloatOps.sqrt (F := Ideal) (φ := .f32) s)) ?_
  exact rowSum_apply _ _ _ r

end Cert.KernelIdeal.BodyRow

end
-- ==== Proof.RegionArray.lean ====
/-
  The array the region leaves: entry e of the 526336-long output is the distance between row e of the first
  padded row set and row e of the second.

  Grid point t fetches rows 2048·t … 2048·t + 2047 of both row sets and writes back entries 2048·t … 2048·t + 2047
  of the output, so the block a point writes is the restriction of one whole-array function, and the 257 blocks
  tile the output: entry e lies in the block of point e / 2048.
-/
import proofs.«142380_j61933428411925_1_alg».proof.Proof.Gen.KernelIdeal.Frame
import proofs.«142380_j61933428411925_1_alg».proof.Proof.BodyRow
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionArray

open Cert.KernelIdeal Cert.KernelIdeal.Gen Cert.KernelIdeal.BodyRow Cert.RowDistance

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- The distances of all 526336 row pairs of two padded row sets. -/
def paddedDists (A B : S526336x256.Idx → EReal) : S526336.Idx → EReal :=
  fun i => rowDist (row A ⟨(i 0).val, (i 0).isLt⟩) (row B ⟨(i 0).val, (i 0).isLt⟩)

/-- The three index maps over the grid: at point t both inputs fetch block (t, 0) and the output writes block t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- Row r of the first input block at point t is row 2048·t + r of the first padded row set. -/
theorem iblk0_apply (c : Dev nD) (t : Fin cfg0.N) (r : Fin 2048) (k : Fin 256) (e : Fin 526336)
    (he : e.val = t.val * 2048 + r.val) :
    (iblk m c 0 t : Vec Ideal S2048x256 .f32) (ix2 r k) = (V m c main_v28 : S526336x256.Idx → EReal) (ix2 e k) := by
  obtain ⟨e0, e1, e2, e3, e4⟩ := idx_facts t
  unfold iblk
  rw [View.read_apply]
  show V m c main_v28 _ = V m c main_v28 _
  congr 1
  funext a
  apply Fin.ext
  match a with
  | ⟨0, _⟩ => show win0_0.index t (0 : Fin 2) * 2048 + 1 * r.val = e.val; rw [e0, he]; omega
  | ⟨1, _⟩ => show win0_0.index t (1 : Fin 2) * 256 + 1 * k.val = k.val; rw [e1]; omega

/-- Row r of the second input block at point t is row 2048·t + r of the second padded row set. -/
theorem iblk1_apply (c : Dev nD) (t : Fin cfg0.N) (r : Fin 2048) (k : Fin 256) (e : Fin 526336)
    (he : e.val = t.val * 2048 + r.val) :
    (iblk m c 1 t : Vec Ideal S2048x256 .f32) (ix2 r k) = (V m c main_v29 : S526336x256.Idx → EReal) (ix2 e k) := by
  obtain ⟨e0, e1, e2, e3, e4⟩ := idx_facts t
  unfold iblk
  rw [View.read_apply]
  show V m c main_v29 _ = V m c main_v29 _
  congr 1
  funext a
  apply Fin.ext
  match a with
  | ⟨0, _⟩ => show win0_1.index t (0 : Fin 2) * 2048 + 1 * r.val = e.val; rw [e2, he]; omega
  | ⟨1, _⟩ => show win0_1.index t (1 : Fin 2) * 256 + 1 * k.val = k.val; rw [e3]; omega

/-- Entry y of the output block at point t sits at entry 2048·t + y of the output array. -/
theorem oblk_row (t : Fin cfg0.N) (y : S2048.Idx) :
    ((((cfg0.win 2).blk t).view.emb y) 0).val = t.val * 2048 + (y 0).val := by
  obtain ⟨e0, e1, e2, e3, e4⟩ := idx_facts t
  show win0_2.index t (0 : Fin 1) * 2048 + 1 * (y 0).val = _
  rw [e4]; omega

/-- A stored vector whose input blocks are rows of two arrays, read where a map `f` of the block's entries says,
    is the arrays' distances read through `f`. -/
theorem block_dists (x0 x1 : Vec Ideal S2048x256 .f32) (A B : S526336x256.Idx → EReal) (f : S2048.Idx → S526336.Idx)
    (h0 : ∀ (y : S2048.Idx) (k : Fin 256), x0 (ix2 ⟨(y 0).val, (y 0).isLt⟩ k) = A (ix2 ⟨(f y 0).val, (f y 0).isLt⟩ k))
    (h1 : ∀ (y : S2048.Idx) (k : Fin 256), x1 (ix2 ⟨(y 0).val, (y 0).isLt⟩ k) = B (ix2 ⟨(f y 0).val, (f y 0).isLt⟩ k))
    (y : S2048.Idx) : k0_pay1 (F := Ideal) x0 x1 y = paddedDists A B (f y) := by
  have hy : y = ix1 (⟨(y 0).val, (y 0).isLt⟩ : Fin 2048) := funext fun d => match d with | ⟨0, _⟩ => rfl
  refine ((congrArg (k0_pay1 (F := Ideal) x0 x1) hy).trans (pay_row x0 x1 ⟨(y 0).val, (y 0).isLt⟩)).trans ?_
  unfold paddedDists
  exact congrArg₂ rowDist (funext fun k => h0 y k) (funext fun k => h1 y k)

/-- What point t writes back is block t of the distances of the two padded row sets as the region finds them. -/
theorem flushed_eq (c : Dev nD) (t : Fin cfg0.N) :
    (dats m 0 c).flushed 2 t
      = ((cfg0.win 2).blk t).view.read (Elt Ideal) (paddedDists (V m c main_v28) (V m c main_v29)) := by
  show (cfg0.win 2).cut (grid0.coords t) ((dats m 0 c).after 2 t) = _
  rw [after0_2]
  unfold out0_2
  rw [View.canon_unit_zero hz1]
  simp only [View.ld_unit_zero (S := S2048x256) hz2]
  funext j
  show k0_pay1 (F := Ideal) (iblk m c 0 t) (iblk m c 1 t) j
    = paddedDists (V m c main_v28) (V m c main_v29) (((cfg0.win 2).blk t).view.emb j)
  refine block_dists (iblk m c 0 t) (iblk m c 1 t) (V m c main_v28) (V m c main_v29)
    (fun y => ((cfg0.win 2).blk t).view.emb y) ?_ ?_ j
  · intro y k
    exact iblk0_apply m c t ⟨(y 0).val, (y 0).isLt⟩ k _ (oblk_row t y)
  · intro y k
    exact iblk1_apply m c t ⟨(y 0).val, (y 0).isLt⟩ k _ (oblk_row t y)

/-- An entry of the output array is in point t's block iff it lies in the block's range. -/
theorem mem_blk (t : Fin cfg0.N) (i : S526336.Idx) :
    i ∈ ((cfg0.win 2).blk t).view.set ↔ ∀ a : Fin 1, win0_2.index t a * S2048.size a ≤ (i a).val
      ∧ (i a).val < win0_2.index t a * S2048.size a + S2048.size a := by
  show i ∈ ((View.whole main_v30).slice (win0_2.rect t)).set ↔ _
  rw [View.set_slice_whole, Rect.mem_set_unit]
  exact Iff.rfl

/-- Every entry of the output array is written back by some point: entry e by point e / 2048. -/
theorem cover (i : S526336.Idx) :
    ∃ t : Fin cfg0.N, (cfg0.win 2).flush t = true ∧ i ∈ ((cfg0.win 2).blk t).view.set := by
  have hi : (i 0).val < 526336 := (i 0).isLt
  have hN : cfg0.N = 257 := N_0
  have ht : (i 0).val / 2048 < cfg0.N := by rw [hN]; omega
  obtain ⟨e0, e1, e2, e3, e4⟩ := idx_facts ⟨(i 0).val / 2048, ht⟩
  refine ⟨⟨(i 0).val / 2048, ht⟩, flush0_2 _, ?_⟩
  rw [mem_blk]
  intro a
  match a with
  | ⟨0, _⟩ =>
    show win0_2.index ⟨(i 0).val / 2048, ht⟩ (0 : Fin 1) * 2048 ≤ (i 0).val
      ∧ (i 0).val < win0_2.index ⟨(i 0).val / 2048, ht⟩ (0 : Fin 1) * 2048 + 2048
    rw [e4]
    show (i 0).val / 2048 * 2048 ≤ (i 0).val ∧ (i 0).val < (i 0).val / 2048 * 2048 + 2048
    omega

/-- The output array after the region: the distances of the two padded row sets. -/
theorem final (c : Dev nD) :
    (dats m 0 c).arrAt 2 cfg0.N = paddedDists (V m c main_v28) (V m c main_v29) :=
  (dats m 0 c).arrAt_eq_of_cover 2 (paddedDists (V m c main_v28) (V m c main_v29))
    (fun t _ => flushed_eq m c t) cover

end Cert.KernelIdeal.RegionArray

end
-- ==== Proof.HostSides.lean ====
/-
  The idealized kernel program around its region, and its run read back.

  Before the region the host lines gather two sets of 524500 rows of 256 entries and pad each with 1836 zero rows;
  the region turns the two padded sets into the 526336 distances of their row pairs; after it the host lines keep the
  first 524500 distances and repeat each 8 times.  A row below 524500 of a padded set is the gathered row, so entry
  (e, j, 0, 0) of the result is the distance between the gathered rows e: the padding rows never reach the result.

  The gathered row sets are stated as the stages of the reference program that compute them: both programs apply the
  same index arithmetic and the same gather to the same arguments, and the equation is by unfolding.
-/
import proofs.«142380_j61933428411925_1_alg».proof.Proof.Gen.KernelIdeal.Frame
import proofs.«142380_j61933428411925_1_alg».proof.Proof.Gen.ReferenceIdeal.Read
import proofs.«142380_j61933428411925_1_alg».proof.Proof.RegionArray
import Idealize.ShloMosaic.Lib.Pipeline.Value
import Idealize.ShloMosaic.Lib.StableHlo.Run
import Idealize.ShloMosaic.Lib.KernelVsHost
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostSides

open Cert.KernelIdeal Cert.KernelIdeal.Gen Cert.KernelIdeal.RegionArray Cert.RowDistance

variable (m : (ℓ : Loc nD τ sig) → Buf (Elt Ideal) ℓ) (ρ : Dev nD → PrngReg)

/-! ## The padding and the tail, as functions -/

/-- A row set of 524500 rows padded with zero rows to 526336 rows. -/
def padRows (a : S524500x256.Idx → EReal) : S526336x256.Idx → EReal :=
  pad S526336x256 ![0, 0] ![1836, 0] ![0, 0] a (sitofp (F := Ideal) .f32 (constantI S_ 32 0#32))
    pads_S524500x256_S526336x256_018360_000 h_S_

/-- Below row 524500 the padded row set is the row set. -/
theorem padRows_apply (a : S524500x256.Idx → EReal) (e : Fin 524500) (e' : Fin 526336) (he : e'.val = e.val)
    (k : Fin 256) : padRows a (ix2 e' k) = a (ix2 e k) := by
  unfold padRows
  refine pad_apply_of_inside _ _ _ a _ pads_S524500x256_S526336x256_018360_000 h_S_ (ix2 e' k) (ix2 e k) fun d => ?_
  match d with
  | ⟨0, _⟩ => show e'.val = 0 + e.val * (0 + 1); omega
  | ⟨1, _⟩ => show k.val = 0 + k.val * (0 + 1); omega

/-- The three host operations after the region: keep the first 524500 entries, then repeat each 8 times
    along a new second axis (and two axes of extent one). -/
def tailOf (d : S526336.Idx → EReal) : S524500x8x1x1.Idx → EReal :=
  broadcastInDim S524500x8x1x1 ![0, 1, 2, 3] bcast_S524500x1x1x1_S524500x8x1x1_0_1_2_3
    (broadcastInDim S524500x1x1x1 ![0] bcast_S524500_S524500x1x1x1_0
      (extractStridedSlice S524500 ![0] d slices_S526336_S524500_0))

/-- Entry (e, j, 0, 0) of the tail's result is entry e of the region's output. -/
theorem tailOf_apply (d : S526336.Idx → EReal) (i : S524500x8x1x1.Idx) (e' : Fin 526336) (he : e'.val = (i 0).val) :
    tailOf d i = d (ix1 e') := by
  unfold tailOf
  refine (broadcastInDim_apply _ bcast_S524500x1x1x1_S524500x8x1x1_0_1_2_3 _ i
    (ix4 (⟨(i 0).val, (i 0).isLt⟩ : Fin 524500) (0 : Fin 1) (0 : Fin 1) (0 : Fin 1)) (fun a => match a with
      | ⟨0, _⟩ => by show (i 0).val = if (524500 : Nat) = 1 then 0 else (i 0).val; rw [if_neg (by decide)]
      | ⟨1, _⟩ => by show 0 = if (1 : Nat) = 1 then 0 else (i 1).val; rw [if_pos rfl]
      | ⟨2, _⟩ => by show 0 = if (1 : Nat) = 1 then 0 else (i 2).val; rw [if_pos rfl]
      | ⟨3, _⟩ => by show 0 = if (1 : Nat) = 1 then 0 else (i 3).val; rw [if_pos rfl])).trans ?_
  refine (broadcastInDim_apply _ bcast_S524500_S524500x1x1x1_0 _ _
    (ix1 (⟨(i 0).val, (i 0).isLt⟩ : Fin 524500)) (fun a => match a with
      | ⟨0, _⟩ => by show (i 0).val = if (524500 : Nat) = 1 then 0 else (i 0).val; rw [if_neg (by decide)])).trans ?_
  refine extractStridedSlice_apply _ d slices_S526336_S524500_0 _ (ix1 e') fun a => ?_
  match a with
  | ⟨0, _⟩ => show e'.val = 0 + (i 0).val; omega

/-- The padded, tiled, sliced and repeated computation is the distance tensor of the unpadded row sets. -/
theorem tail_padded (a b : S524500x256.Idx → EReal) :
    tailOf (paddedDists (padRows a) (padRows b)) = edgeDist a b := by
  funext i
  have hi : (i 0).val < 524500 := (i 0).isLt
  rw [tailOf_apply _ i ⟨(i 0).val, by omega⟩ rfl]
  unfold paddedDists edgeDist dists
  exact congrArg₂ rowDist (funext fun k => padRows_apply a ⟨(i 0).val, hi⟩ _ rfl k)
    (funext fun k => padRows_apply b ⟨(i 0).val, hi⟩ _ rfl k)

/-! ## The window arrays as the region finds them -/

set_option maxRecDepth 8192 in
set_option maxHeartbeats 2000000 in
/-- The first window's array: the rows gathered at (eb, ei), padded. -/
theorem rows_first (c : Dev nD) :
    (V m c main_v28 : S526336x256.Idx → EReal)
      = padRows (Cert.ReferenceIdeal.Read.val_main_v13 (F := Ideal) (m ((c : Thread nD τ).loc main_arg0))
          (m ((c : Thread nD τ).loc main_arg1)) (m ((c : Thread nD τ).loc main_arg2))) := by
  unfold padRows
  dsimp only [V, V0]
  simp only [hostOps0, hostOps0_1, hostOps0_2, hostOps0_3, List.flatten_cons, List.flatten_nil, List.append_nil,
    List.cons_append, List.nil_append]
  after_results_simp
  rfl

set_option maxRecDepth 8192 in
set_option maxHeartbeats 2000000 in
/-- The second window's array: the rows gathered at (eb, ej), padded. -/
theorem rows_second (c : Dev nD) :
    (V m c main_v29 : S526336x256.Idx → EReal)
      = padRows (Cert.ReferenceIdeal.Read.val_main_v27 (F := Ideal) (m ((c : Thread nD τ).loc main_arg0))
          (m ((c : Thread nD τ).loc main_arg1)) (m ((c : Thread nD τ).loc main_arg3))) := by
  unfold padRows
  dsimp only [V, V0]
  simp only [hostOps0, hostOps0_1, hostOps0_2, hostOps0_3, List.flatten_cons, List.flatten_nil, List.append_nil,
    List.cons_append, List.nil_append]
  after_results_simp
  rfl

/-! ## The region's output and the lines after it -/

/-- What the lines after the region find in the output array: the distances of the two padded row sets. -/
theorem region_out (c : Dev nD) :
    Pipeline.withArrays spec0 c (V0 m c) (fun w => (dats m 0 c).arrAt w cfg0.N)
        (Proc.devRef .tc (Pipeline.arrRef spec0 2))
      = paddedDists (V m c main_v28) (V m c main_v29) :=
  (Pipeline.withArrays_arr spec0 launch0.win.arr_inj c _ _ 2).trans (RegionArray.final m c)

/-- The program's result: the distance tensor of the two gathered row sets. -/
theorem result_eq (c : Dev nD) :
    (Pipeline.afterTail₀ cfgs (dats m) 0 (V0 m) [hostOps1] c main_v33 : S524500x8x1x1.Idx → EReal)
      = edgeDist
          (Cert.ReferenceIdeal.Read.val_main_v13 (F := Ideal) (m ((c : Thread nD τ).loc main_arg0))
            (m ((c : Thread nD τ).loc main_arg1)) (m ((c : Thread nD τ).loc main_arg2)))
          (Cert.ReferenceIdeal.Read.val_main_v27 (F := Ideal) (m ((c : Thread nD τ).loc main_arg0))
            (m ((c : Thread nD τ).loc main_arg1)) (m ((c : Thread nD τ).loc main_arg3))) := by
  unfold Pipeline.afterTail₀
  simp only [List.flatten_cons, List.flatten_nil, List.append_nil]
  show StableHlo.after hostOps1 _ (Proc.devRef .tc main_v33) = _
  after_results
  refine (congrArg tailOf (region_out m c)).trans ?_
  rw [rows_first, rows_second]
  exact tail_padded _ _

/-! ## The run, read -/

/-- Every weakly fair execution of the idealized kernel program terminates with the result at the distance tensor of
    the two gathered row sets and the arguments unchanged. -/
theorem run : θ_run defs (onTc (τ := τ) (main (F := Ideal))) ⟨m, fun _ => 0, ρ⟩ fun r => ∀ c : Dev nD,
      r.2.mem ((c.tc : Thread nD τ).loc main_v33)
        = edgeDist
            (Cert.ReferenceIdeal.Read.val_main_v13 (F := Ideal) (m ((c : Thread nD τ).loc main_arg0))
              (m ((c : Thread nD τ).loc main_arg1)) (m ((c : Thread nD τ).loc main_arg2)))
            (Cert.ReferenceIdeal.Read.val_main_v27 (F := Ideal) (m ((c : Thread nD τ).loc main_arg0))
              (m ((c : Thread nD τ).loc main_arg1)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v33 (Pipeline.mem_restRefs_of main_v33 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSides

end
-- ==== Proof.lean ====
/-
  Pairwise distances over selected edges: for each of 524500 index triples (b, i, j) the distance
  |√(∑ₖ (x[b, i, k] − x[b, j, k])²)| between two rows of x, each distance repeated 8 times.

  The kernel program gathers the two row sets on the host, pads them with zero rows to 257 blocks of 2048 rows, computes
  the distances block by block, and cuts the padding off again; the reference computes the same expression on the whole
  row sets.  At the ideal instance both results are one function, `RowDistance.edgeDist`, of the same two gathered row
  sets: the kernel's lane sum and the host's sum from a zero initial value are the same 256-term sum, the square root and
  the absolute value are the same functions on both sides, and a row below 524500 of a padded row set is the gathered row.
  No law that needs finite entries is used, so the precondition is never opened.

  The frames of the two kernel programs are the generated ones; the reference's frame is its generated run with the
  result dropped; the idealization rewrote nothing, so `preserves` is `True`.
-/
import proofs.«142380_j61933428411925_1_alg».proof.Defs
import proofs.«142380_j61933428411925_1_alg».proof.Proof.Gen.Kernel
import proofs.«142380_j61933428411925_1_alg».proof.Proof.Gen.Kernel.Skeleton
import proofs.«142380_j61933428411925_1_alg».proof.Proof.Gen.Kernel.Launch
import proofs.«142380_j61933428411925_1_alg».proof.Proof.Gen.Kernel.Points
import proofs.«142380_j61933428411925_1_alg».proof.Proof.Gen.Kernel.Frame
import proofs.«142380_j61933428411925_1_alg».proof.Proof.Gen.KernelIdeal
import proofs.«142380_j61933428411925_1_alg».proof.Proof.Gen.KernelIdeal.Skeleton
import proofs.«142380_j61933428411925_1_alg».proof.Proof.Gen.KernelIdeal.Launch
import proofs.«142380_j61933428411925_1_alg».proof.Proof.Gen.KernelIdeal.Points
import proofs.«142380_j61933428411925_1_alg».proof.Proof.Gen.KernelIdeal.Frame
import proofs.«142380_j61933428411925_1_alg».proof.Proof.Gen.ReferenceIdeal
import proofs.«142380_j61933428411925_1_alg».proof.Proof.Gen.ReferenceIdeal.Run
import proofs.«142380_j61933428411925_1_alg».proof.Proof.Gen.ReferenceIdeal.Read
import proofs.«142380_j61933428411925_1_alg».proof.Proof.Gen.Pre_finite_inputs
import proofs.«142380_j61933428411925_1_alg».proof.Proof.RowDistance
import proofs.«142380_j61933428411925_1_alg».proof.Proof.ReferenceRows
import proofs.«142380_j61933428411925_1_alg».proof.Proof.HostSides
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at the distance tensor of the two
    row sets gathered from those arguments. -/
theorem algebraic : Cert.algebraic_KernelIdeal_ReferenceIdeal := by
  intro m ρ m' ρ' _ hagree
  refine ⟨_, Cert.KernelIdeal.HostSides.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq _ _ _ _).trans ?_
  rw [Cert.ReferenceIdeal.Rows.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
